-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.LibSharedFrame.lean ====
/-
  A frame run for a one-region pipeline whose INPUT WINDOWS MAY SHARE AN ARRAY.

  When one array is handed to a kernel through several input windows, the buffers behind the windows' arrays are
  no longer pairwise distinct, so the region cannot be entered with every window holding its array at the full
  share.  Instead the array's full share is divided among the windows that read it (`hsplit`): each reader holds
  a fraction, which is enough to fetch blocks from it and forbids every write.  Everything else is the plain
  frame run: the body keeps nothing between grid points beyond the core's scoped scratch (`hΦ`), owes nothing,
  and the unscoped buffers that are no window's array bypass the region and are read back unchanged.

  Conclusion: every window's array ends at what the write-backs make of its entry contents (`Dat.arrAt … N`),
  every other unscoped buffer at its contents on entry.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run of a one-region pipeline whose windows may share arrays: the certificate says how the buffers
    behind the arrays, whole at the region-entry contents, make the proof data's `arrays` (`hsplit`: a shared
    input array's share divided among its readers); the body's invariant is the core's scoped scratch alone. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) :=
  θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfg).spec c (V c))
    (fun c => by
      iintro H
      isplitr
      · iempintro
      · iexact H)
    (fun c => by
      rw [hΦ]
      iintro ⟨-, H⟩
      iexact H)
    (fun c => by
      rw [hΦ]
      iintro H
      isplitr
      · iempintro
      · iexact H)
    (fun c s => ∀ b ∈ restRefs sig (cfg).spec, s.mem ((c.tc : Thread nD τ).loc b) = V c b)
    (fun c s' => by
      iintro ⟨-, HU, HSI⟩
      unfold unscopedRest
      imodintro
      iapply (pointsTo_read_all (restRefs sig (cfg).spec) (fun b => (c.tc : Thread nD τ).loc b) (V c) s')
      isplitl [HU] <;> iassumption)
    (fun s h => h)

end SharedFrame

end Pipeline

end Idealize.ShloMosaic

end
-- ==== Proof.BitsFrameBody.lean ====
/-
  The frame of the pairwise-distance kernel: the program runs to the end on every weakly fair schedule, faults
  nowhere, and leaves its argument array as it found it — together with what its result array holds afterwards.

  The kernel is one pipelined region on an 8 × 8 grid.  At point (i, j) it is handed row block i of the argument
  (1024 rows of 512) through its first input window, row block j of THE SAME argument through its second, and
  writes the 1024 × 1024 block (i, j) of the result.  Both input windows are backed by one array, so neither can
  hold it outright: the array's full share is cut in two halves, one for each reader.  A half is all a reader
  needs (blocks are only fetched from it, never written), and since nobody holds the other half with write
  permission the array is unchanged at the end.  The result array is held whole by the single output window.

  The body reads its two input buffers whole, computes one 1024 × 1024 value from them and stores it over the
  whole output buffer (after a load of that buffer whose value it never uses), so after the body the output
  buffer holds that value whatever it held before, and the input buffers are untouched.
-/
import proofs.«108776_j47253230191386_1_alg».proof.Proof.Gen.Kernel.Launch
import proofs.«108776_j47253230191386_1_alg».proof.Proof.Gen.Kernel.Skeleton
import proofs.«108776_j47253230191386_1_alg».proof.Proof.Gen.Kernel.Points
import proofs.«108776_j47253230191386_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current buffer holds its block at every point: where the pipeline does not fetch,
    the block index has not moved since the last fetch and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 1024 × 512 input buffer, as the body loads it. -/
abbrev rIn : Rect S1024x512 := Rect.unit (s := S1024x512) ![0, 0] S1024x512.size inb_S1024x512_S1024x512_0_0
/-- The whole 1024 × 1024 output buffer, as the body stores it. -/
abbrev rOut : Rect S1024x1024 := Rect.unit (s := S1024x1024) ![0, 0] S1024x1024.size inb_S1024x1024_S1024x1024_0_0

/-- What the output buffer holds after the body, from the two input buffers' contents: its one store, of the
    distance tile computed from the two loaded row blocks. -/
def outTile (x0 : Vec F S1024x512 .f32) (x1 : Vec F S1024x512 .f32) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs — the inputs' at contents `x0`, `x1`, the output's at anything — runs
    to the continuation holding the inputs' as they were and the output's at `outTile x0 x1`. -/
theorem sound_kernel (c : Dev nD) (E : Set ℕ) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

end Cert.Kernel.Frm

end
-- ==== Proof.BitsFrame.lean ====
/-
  The launch of the pairwise-distance kernel and what it leaves behind.

  Proof data: on entry every array holds its launch contents; after the body at grid point t each input buffer
  still holds the row block it was handed and the output buffer holds the distance tile of the two row blocks.
  The first input window holds the left half of the argument array's share, the second the right half, the
  output window all of the result array.  Between points the body keeps nothing.
-/
import proofs.«108776_j47253230191386_1_alg».proof.Proof.BitsFrameBody

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The share each window holds of its array: the two readers of the argument array a half each. -/
def shareOf : Fin cfg0.W → PosShare TreeShare
  | ⟨0, _⟩ => fullShare.left
  | ⟨1, _⟩ => fullShare.right
  | ⟨2, _⟩ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their row blocks, so the body's triple applies; the invariant
    and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared argument array dealt to its two readers -/

/-- The two distinct buffers behind the three windows' arrays. -/
theorem arrRefs_eq : (Finset.univ.image (Pipeline.arrRef spec0) : Finset (Ref sig .tc)) = [main_arg0, main_v0].toFinset := by decide

/-- The proof data's arrays, window by window. -/
theorem arrays_eq (c : Dev nD) (G : (w : Fin cfg0.W) → Buf (Elt F) ((cfg0.win w).arr.view.loc (c.tc : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_v0) ↦{fullShare} G 2) : sProp 𝕄) := by
  unfold Dat.arrays
  rw [bigSep_W0, (arr_whole0 0).set_eq_univ, (arr_whole0 2).set_eq_univ]
  rfl

/-- The argument array whole and the result array whole are the three windows' holdings: the argument's full
    share splits into the two halves its readers hold. -/
theorem hsplit (c : Dev nD) :
    (Pipeline.arrBufs spec0 c (V m c) : sProp 𝕄) ⊢ (dats m 0 c).arrays ((dats m 0 c).arrAt · 0) := by
  rw [arrays_eq]
  unfold Pipeline.arrBufs
  rw [bigSep_eq_bigSepL_of_eq [main_arg0, main_v0] arrRefs_eq (by decide)]
  show iprop((((c : Thread nD τ).loc main_arg0) ↦{fullShare} V m c main_arg0) ∗ (((c : Thread nD τ).loc main_v0) ↦{fullShare} V m c main_v0)) ⊢ _
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

set_option backward.isDefEq.respectTransparency.types false in
/-- Every weakly fair execution of @main terminates without a fault, each window's array ending at what the
    write-backs make of its launch contents. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- After the run the argument array is as launched: an input window never writes its array back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans (A_eq m c 0))

/-- After the run the result array is the output window's array after all 64 write-backs. -/
theorem post_main_v0 (r : PUnit × MemSt nD τ sig (Elt F)) (h : Pipeline.FramePost cfgs (dats m) 0 (V m) r) (c : Dev nD) :
    r.2.mem ((c : Thread nD τ).loc main_v0) = (dats m 0 c).arrAt 2 cfg0.N :=
  (h c).1 2

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

/-- The run with the result array named. -/
theorem run_blocks : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0) :=
  (θ_run defs _ _).mono (fun r h c => ⟨post_main_v0 m r h c, kept_main_arg0 m r h c⟩) (run_main m ρ)

end Cert.Kernel.Frm

end
-- ==== Proof.IdealFrameBody.lean ====
/-
  The frame of the pairwise-distance kernel: the program runs to the end on every weakly fair schedule, faults
  nowhere, and leaves its argument array as it found it — together with what its result array holds afterwards.

  The kernel is one pipelined region on an 8 × 8 grid.  At point (i, j) it is handed row block i of the argument
  (1024 rows of 512) through its first input window, row block j of THE SAME argument through its second, and
  writes the 1024 × 1024 block (i, j) of the result.  Both input windows are backed by one array, so neither can
  hold it outright: the array's full share is cut in two halves, one for each reader.  A half is all a reader
  needs (blocks are only fetched from it, never written), and since nobody holds the other half with write
  permission the array is unchanged at the end.  The result array is held whole by the single output window.

  The body reads its two input buffers whole, computes one 1024 × 1024 value from them and stores it over the
  whole output buffer (after a load of that buffer whose value it never uses), so after the body the output
  buffer holds that value whatever it held before, and the input buffers are untouched.
-/
import proofs.«108776_j47253230191386_1_alg».proof.Proof.Gen.KernelIdeal.Launch
import proofs.«108776_j47253230191386_1_alg».proof.Proof.Gen.KernelIdeal.Skeleton
import proofs.«108776_j47253230191386_1_alg».proof.Proof.Gen.KernelIdeal.Points
import proofs.«108776_j47253230191386_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current buffer holds its block at every point: where the pipeline does not fetch,
    the block index has not moved since the last fetch and the body left the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 1024 × 512 input buffer, as the body loads it. -/
abbrev rIn : Rect S1024x512 := Rect.unit (s := S1024x512) ![0, 0] S1024x512.size inb_S1024x512_S1024x512_0_0
/-- The whole 1024 × 1024 output buffer, as the body stores it. -/
abbrev rOut : Rect S1024x1024 := Rect.unit (s := S1024x1024) ![0, 0] S1024x1024.size inb_S1024x1024_S1024x1024_0_0

/-- What the output buffer holds after the body, from the two input buffers' contents: its one store, of the
    distance tile computed from the two loaded row blocks. -/
def outTile (x0 : Vec F S1024x512 .f32) (x1 : Vec F S1024x512 .f32) : Vec F S1024x1024 .f32 :=
  View.canon [⟨rOut, k0_pay1 (View.ld x0 rIn) (View.ld x1 rIn)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs — the inputs' at contents `x0`, `x1`, the output's at anything — runs
    to the continuation holding the inputs' as they were and the output's at `outTile x0 x1`. -/
theorem sound_kernel (c : Dev nD) (E : Set ℕ) (i : grid0.Coords) (arg2 : Memref sig .tc .vmem S1024x512 .f32) (harg2 : arg2.IsWhole) (arg3 : Memref sig .tc .vmem S1024x512 .f32) (harg3 : arg3.IsWhole) (arg4 : Memref sig .tc .vmem S1024x1024 .f32) (harg4 : arg4.IsWhole)
    (x0 : Vec F S1024x512 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

end Cert.KernelIdeal.Frm

end
-- ==== Proof.IdealFrame.lean ====
/-
  The launch of the pairwise-distance kernel and what it leaves behind.

  Proof data: on entry every array holds its launch contents; after the body at grid point t each input buffer
  still holds the row block it was handed and the output buffer holds the distance tile of the two row blocks.
  The first input window holds the left half of the argument array's share, the second the right half, the
  output window all of the result array.  Between points the body keeps nothing.
-/
import proofs.«108776_j47253230191386_1_alg».proof.Proof.IdealFrameBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The share each window holds of its array: the two readers of the argument array a half each. -/
def shareOf : Fin cfg0.W → PosShare TreeShare
  | ⟨0, _⟩ => fullShare.left
  | ⟨1, _⟩ => fullShare.right
  | ⟨2, _⟩ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their row blocks, so the body's triple applies; the invariant
    and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared argument array dealt to its two readers -/

/-- The two distinct buffers behind the three windows' arrays. -/
theorem arrRefs_eq : (Finset.univ.image (Pipeline.arrRef spec0) : Finset (Ref sig .tc)) = [main_arg0, main_v0].toFinset := by decide

/-- The proof data's arrays, window by window. -/
theorem arrays_eq (c : Dev nD) (G : (w : Fin cfg0.W) → Buf (Elt F) ((cfg0.win w).arr.view.loc (c.tc : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_v0) ↦{fullShare} G 2) : sProp 𝕄) := by
  unfold Dat.arrays
  rw [bigSep_W0, (arr_whole0 0).set_eq_univ, (arr_whole0 2).set_eq_univ]
  rfl

/-- The argument array whole and the result array whole are the three windows' holdings: the argument's full
    share splits into the two halves its readers hold. -/
theorem hsplit (c : Dev nD) :
    (Pipeline.arrBufs spec0 c (V m c) : sProp 𝕄) ⊢ (dats m 0 c).arrays ((dats m 0 c).arrAt · 0) := by
  rw [arrays_eq]
  unfold Pipeline.arrBufs
  rw [bigSep_eq_bigSepL_of_eq [main_arg0, main_v0] arrRefs_eq (by decide)]
  show iprop((((c : Thread nD τ).loc main_arg0) ↦{fullShare} V m c main_arg0) ∗ (((c : Thread nD τ).loc main_v0) ↦{fullShare} V m c main_v0)) ⊢ _
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

set_option backward.isDefEq.respectTransparency.types false in
/-- Every weakly fair execution of @main terminates without a fault, each window's array ending at what the
    write-backs make of its launch contents. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- After the run the argument array is as launched: an input window never writes its array back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans (A_eq m c 0))

/-- After the run the result array is the output window's array after all 64 write-backs. -/
theorem post_main_v0 (r : PUnit × MemSt nD τ sig (Elt F)) (h : Pipeline.FramePost cfgs (dats m) 0 (V m) r) (c : Dev nD) :
    r.2.mem ((c : Thread nD τ).loc main_v0) = (dats m 0 c).arrAt 2 cfg0.N :=
  (h c).1 2

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

/-- The run with the result array named. -/
theorem run_blocks : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0) :=
  (θ_run defs _ _).mono (fun r h c => ⟨post_main_v0 m r h c, kept_main_arg0 m r h c⟩) (run_main m ρ)

end Cert.KernelIdeal.Frm

end
-- ==== Proof.DistSpec.lean ====
/-
  The pairwise Euclidean distance matrix of the rows of an 8192 × 512 array, over the extended reals.

  For rows r and c:  dist(r, c) = √ max( (‖a_r‖² + ‖a_c‖²) − 2 · ⟨a_r, a_c⟩ , 0 ),
  with ‖a_r‖² = Σ_k a(r,k)·a(r,k) and ⟨a_r, a_c⟩ = Σ_k a(r,k)·a(c,k), the sums over the 512 columns.
  The two literals are kept as the bit patterns the programs print (2.0 and 0.0), so that neither is evaluated.
  Both programs compute exactly this expression, with the same grouping; no algebraic law beyond 0 + x = x is
  needed to bring them together, so nothing here depends on the inputs being finite.
-/
import Idealize.ShloMosaic.PureOps.Ideal
import Idealize.ShloMosaic.PureOps.Ideal.Laws
import Idealize.ShloMosaic.Lib.ValueIdx

noncomputable section

namespace Cert.DistSpec

open Idealize.ShloMosaic Idealize.ShloMosaic.ValueIdx

/-- The argument's shape and the result's. -/
abbrev SArg : Shape := ⟨2, ![8192, 512]⟩
abbrev SOut : Shape := ⟨2, ![8192, 8192]⟩

/-- The row and the column of a result index, as numbers below 8192. -/
abbrev rowOf (i : SOut.Idx) : Fin 8192 := i 0
abbrev colOf (i : SOut.Idx) : Fin 8192 := i 1

/-- The squared norm of row `r`. -/
def sqNorm (a : SArg.Idx → EReal) (r : Fin 8192) : EReal := ∑ k : Fin 512, a (ix2 r k) * a (ix2 r k)

/-- The inner product of rows `r` and `c`. -/
def rowDot (a : SArg.Idx → EReal) (r c : Fin 8192) : EReal := ∑ k : Fin 512, a (ix2 r k) * a (ix2 c k)

/-- The distance from its three sums. -/
def distOf (sr sc g : EReal) : EReal :=
  Ideal.sqrt (max (sr + sc - Ideal.ofBits .f32 0x40000000#32 * g) (Ideal.ofBits .f32 0x00000000#32))

/-- The distance matrix. -/
def dist (a : SArg.Idx → EReal) : SOut.Idx → EReal := fun i =>
  distOf (sqNorm a (rowOf i)) (sqNorm a (colOf i)) (rowDot a (rowOf i) (colOf i))

theorem dist_apply (a : SArg.Idx → EReal) (i : SOut.Idx) :
    dist a i = distOf (sqNorm a (rowOf i)) (sqNorm a (colOf i)) (rowDot a (rowOf i) (colOf i)) := rfl

end Cert.DistSpec

end
-- ==== Proof.LibKeepdims.lean ====
/-
  Column vectors read at an index: the layout steps of a row reduction kept as a column (`keepdims`).

  * a vector of length a cast to an a × 1 column reads, at (i, u), the vector at i;
  * an a × 1 column broadcast along rows to a × b reads, at (p, c), the column at (p, 0);
  * an a × 1 column transposed to a 1 × a row reads, at (u, i), the column at (i, u).

  Any sizes; only library files are imported.
-/
import Idealize.ShloMosaic.Lib.Pipeline.Value
import Idealize.ShloMosaic.Lib.ValueIdx
import Idealize.ShloMosaic.Lib.ValueLayout

namespace Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `a × 1` column transposed to a `1 × a` row reads, at `(u, i)`, the column at `(i, u)`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

end Idealize.ShloMosaic.ValueIdx
-- ==== Proof.KerTile.lean ====
/-
  The kernel's tile at an index.

  From two 1024 × 512 row blocks x0 and x1 the body computes a 1024 × 1024 tile whose entry (p, q) is
  √ max( (Σ_k x0(p,k)² + Σ_k x1(q,k)²) − 2 · Σ_k x0(p,k)·x1(q,k) , 0 ).
  The squared norms of x0's rows are summed along the lanes, kept as a column and broadcast along the rows of the
  tile; those of x1's rows are kept as a column, transposed to a row and broadcast down the columns; the inner
  products are one matrix product, contracted over the 512 columns of both blocks, into a zero accumulator (the
  narrowing of its operands to bf16 changes nothing over the extended reals).
-/
import proofs.«108776_j47253230191386_1_alg».proof.Proof.Gen.KernelIdeal.Skeleton
import proofs.«108776_j47253230191386_1_alg».proof.Proof.DistSpec
import proofs.«108776_j47253230191386_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Cert.DistSpec Idealize.ShloMosaic Idealize.ShloMosaic.ValueIdx

/-- The squared norms of a block's rows, one per row. -/
def rowNorms (x : FVec Ideal S1024x512 .f32) : FVec Ideal S1024 .f32 :=
  multiReduction (F := Ideal) .add [1] S1024 (mulf x x) 0x00000000#32 reduces_S1024x512_S1024 (.inl rfl) rfl

theorem rowNorms_apply (x : FVec Ideal S1024x512 .f32) (p : Fin 1024) :
    rowNorms x (ix1 p) = ∑ k : Fin 512, x (ix2 p k) * x (ix2 p k) := by
  refine (Ideal.multiReduction_add_single (mulf x x) 0x00000000#32 reduces_S1024x512_S1024 (.inl rfl) rfl (ix1 p)).trans ?_
  refine Finset.sum_congr rfl fun k _ => ?_
  have e : reduces_S1024x512_S1024.lift (ix1 p) k = ix2 p k :=
    funext fun a => Fin.ext (by match a with | ⟨0, _⟩ => rfl | ⟨1, _⟩ => rfl)
  rw [e]; rfl

/-- The rows' norms as a column broadcast along the tile's rows. -/
def alongRows (x : FVec Ideal S1024x512 .f32) : FVec Ideal S1024x1024 .f32 :=
  broadcastTo S1024x1024 (shapeCast S1024x1 (rowNorms x) shapeCasts_S1024_S1024x1) broadcasts_S1024x1_S1024x1024

theorem alongRows_apply (x : FVec Ideal S1024x512 .f32) (p q : Fin 1024) :
    alongRows x (ix2 p q) = ∑ k : Fin 512, x (ix2 p k) * x (ix2 p k) := by
  unfold alongRows
  rw [broadcastTo_a1_ab_apply, shapeCast_a_a1_apply, rowNorms_apply]

/-- The rows' norms as a row broadcast down the tile's columns. -/
def downCols (x : FVec Ideal S1024x512 .f32) : FVec Ideal S1024x1024 .f32 :=
  broadcastTo S1024x1024 (transpose S1x1024 [1, 0] (shapeCast S1024x1 (rowNorms x) shapeCasts_S1024_S1024x1) transposes_S1024x1_p1_0_S1x1024)
    broadcasts_S1x1024_S1024x1024

theorem downCols_apply (x : FVec Ideal S1024x512 .f32) (p q : Fin 1024) :
    downCols x (ix2 p q) = ∑ k : Fin 512, x (ix2 q k) * x (ix2 q k) := by
  unfold downCols
  rw [broadcastTo_1b_ab_apply, transpose_a1_1a_apply, shapeCast_a_a1_apply, rowNorms_apply]

/-- The inner products of x0's rows with x1's rows. -/
def gramTile (x0 x1 : FVec Ideal S1024x512 .f32) : FVec Ideal S1024x1024 .f32 :=
  matmul (F := Ideal) dot_S1024x512_S1024x512_S1024x1024_1_1_0_0_n_n none (truncf .bf16 x0 bitsLt_bf16_f32) (truncf .bf16 x1 bitsLt_bf16_f32)
    (constant S1024x1024 .f32 0x00000000#32)

theorem lhs_gram_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_gram_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_gram_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_gram_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

theorem gramTile_apply (x0 x1 : FVec Ideal S1024x512 .f32) (p q : Fin 1024) :
    gramTile x0 x1 (ix2 p q) = ∑ k : Fin 512, x0 (ix2 p k) * x1 (ix2 q k) := by
  unfold gramTile
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_gram_0 _ _
    | ⟨1, _⟩ => exact (lhs_gram_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_gram_0 _ _
    | ⟨1, _⟩ => exact (rhs_gram_1 _ _).trans hk)
  rw [el, er]
  rfl

/-- The body's stored value is the distance of those three terms, entry by entry. -/
theorem pay_eq (x0 x1 : FVec Ideal S1024x512 .f32) (j : S1024x1024.Idx) :
    k0_pay1 (F := Ideal) x0 x1 j = distOf (alongRows x0 j) (downCols x1 j) (gramTile x0 x1 j) := rfl

/-- The tile at (p, q). -/
theorem tile_apply (x0 x1 : FVec Ideal S1024x512 .f32) (p q : Fin 1024) :
    k0_pay1 (F := Ideal) x0 x1 (ix2 p q)
      = distOf (∑ k : Fin 512, x0 (ix2 p k) * x0 (ix2 p k)) (∑ k : Fin 512, x1 (ix2 q k) * x1 (ix2 q k))
          (∑ k : Fin 512, x0 (ix2 p k) * x1 (ix2 q k)) := by
  rw [pay_eq, alongRows_apply, downCols_apply, gramTile_apply]

end Cert.KernelIdeal.Tile

end
-- ==== Proof.IdealValue.lean ====
/-
  What the kernel leaves in its result array: the distance matrix of its argument.

  Grid point t = (bi, bj) writes back block (bi, bj) of the result: rows bi·1024 … and columns bj·1024 ….  Its two
  input buffers hold row block bi and row block bj of the argument, so entry (p, q) of the tile it stores is the
  distance between rows bi·1024 + p and bj·1024 + q — the distance matrix read through that block.  The 64
  blocks tile the 8192 × 8192 result (the block of (r, c) is the one written at (r / 1024, c / 1024)), so after
  the last write-back the whole array is the distance matrix.
-/
import proofs.«108776_j47253230191386_1_alg».proof.Proof.IdealFrame
import proofs.«108776_j47253230191386_1_alg».proof.Proof.KerTile
import Idealize.ShloMosaic.Lib.Pipeline.Value

set_option maxRecDepth 16384

noncomputable section

namespace Cert.KernelIdeal.Val

open Cert.KernelIdeal Cert.KernelIdeal.Gen Cert.KernelIdeal.Frm Cert.KernelIdeal.Tile Cert.DistSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the first input follows the output's row block, the second its column block, both
    at column block 0; the output's block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row p of the first input block at point t is the argument's row under the output block's row p. -/
theorem iblk0_apply (c : Dev nD) (t : Fin cfg0.N) (p q : Fin 1024) (k : Fin 512) :
    iblk m c 0 t (ix2 p k) = V m c main_arg0 (ix2 (rowOf (((cfg0.win 2).blk t).view.emb (ix2 p q))) k) := by
  obtain ⟨e0, e1, e2, e3, e4, e5⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 512 + 1 * k.val = k.val; omega

/-- Row q of the second input block at point t is the argument's row under the output block's column q. -/
theorem iblk1_apply (c : Dev nD) (t : Fin cfg0.N) (p q : Fin 1024) (k : Fin 512) :
    iblk m c 1 t (ix2 q k) = V m c main_arg0 (ix2 (colOf (((cfg0.win 2).blk t).view.emb (ix2 p q))) k) := by
  obtain ⟨e0, e1, e2, e3, e4, e5⟩ := idx_facts t
  show V m c main_arg0 (((cfg0.win 1).blk t).view.emb (ix2 q k)) = _
  refine congrArg (V m c main_arg0) (funext fun a => Fin.ext ?_)
  match a with
  | ⟨0, _⟩ => show win0_1.index t (0 : Fin 2) * 1024 + 1 * q.val = win0_2.index t (1 : Fin 2) * 1024 + 1 * q.val; omega
  | ⟨1, _⟩ => show win0_1.index t (1 : Fin 2) * 512 + 1 * k.val = k.val; omega

/-- What point t writes back is block t of the distance matrix of the argument. -/
theorem flushed_eq (c : Dev nD) (t : Fin cfg0.N) :
    (dats m 0 c).flushed 2 t = ((cfg0.win 2).blk t).view.read (Elt Ideal) (dist (V m c main_arg0)) := by
  show (cfg0.win 2).cut (grid0.coords t) ((dats m 0 c).after 2 t) = _
  rw [after0_2]
  unfold outTile
  rw [View.canon_unit_zero hz]
  simp only [View.ld_unit_zero (S := S1024x512) hz]
  refine funext fun (j : S1024x1024.Idx) => ?_
  obtain ⟨p, q, rfl⟩ : ∃ (p q : Fin 1024), j = ix2 p q := ⟨j 0, j 1, eq_ix2 j⟩
  show k0_pay1 (F := Ideal) (iblk m c 0 t) (iblk m c 1 t) (ix2 p q) = dist (V m c main_arg0) (((cfg0.win 2).blk t).view.emb (ix2 p q))
  rw [tile_apply, dist_apply]
  unfold sqNorm rowDot
  simp only [iblk0_apply m c t p q, iblk1_apply m c t p q]

/-- An index of the result is in point t's block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The 64 blocks cover the result. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the distance matrix of the argument as launched. -/
theorem final (c : Dev nD) : (dats m 0 c).arrAt 2 cfg0.N = dist (m ((c : Thread nD τ).loc main_arg0)) :=
  (dats m 0 c).arrAt_eq_of_cover 2 (dist (V m c main_arg0)) (fun t _ => flushed_eq m c t) cover

/-- The run: the result array at the distance matrix, the argument unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Val

end
-- ==== Proof.RefDist.lean ====
/-
  The reference computes the distance matrix.

  Read one operation at a time, element (r, c) of the reference's result is
  √ max( ((0 + Σ_k a(r,k)·a(r,k)) + (0 + Σ_k a(c,k)·a(c,k))) − 2 · Σ_k a(r,k)·a(c,k) , 0 ):
  the row sums start from the reduction's initial value 0, the two broadcasts of the vector of squared norms pick
  row r along one axis and row c along the other, and the matrix product contracts the 512 columns.
  Dropping the two leading zeros gives the specification.
-/
import proofs.«108776_j47253230191386_1_alg».proof.Proof.Gen.ReferenceIdeal.Read
import proofs.«108776_j47253230191386_1_alg».proof.Proof.DistSpec

noncomputable section

namespace Cert.ReferenceIdeal.RefDist

open Cert.ReferenceIdeal Cert.ReferenceIdeal.Read Cert.DistSpec Idealize.ShloMosaic Idealize.ShloMosaic.ValueIdx

/-- The squared norms broadcast down the columns read row `r`'s entries; -/
theorem idx_rowNorm (i : S8192x8192.Idx) (k : Fin 512) : idx_main_v1 (idx_main_v3 (idx_main_v5 i)) k = ix2 (rowOf i) k :=
  funext fun a => Fin.ext (by match a with | ⟨0, _⟩ => rfl | ⟨1, _⟩ => rfl)
/-- broadcast along the rows, row `c`'s. -/
theorem idx_colNorm (i : S8192x8192.Idx) (k : Fin 512) : idx_main_v1 (idx_main_v4 (idx_main_v6 i)) k = ix2 (colOf i) k :=
  funext fun a => Fin.ext (by match a with | ⟨0, _⟩ => rfl | ⟨1, _⟩ => rfl)
/-- The matrix product's left factor is row `r`, -/
theorem idx_lhs (i : S8192x8192.Idx) (k : Fin 512) : lidx_main_v2 i k = ix2 (rowOf i) k :=
  funext fun a => Fin.ext (by match a with | ⟨0, _⟩ => rfl | ⟨1, _⟩ => rfl)
/-- its right factor row `c`. -/
theorem idx_rhs (i : S8192x8192.Idx) (k : Fin 512) : ridx_main_v2 i k = ix2 (colOf i) k :=
  funext fun a => Fin.ext (by match a with | ⟨0, _⟩ => rfl | ⟨1, _⟩ => rfl)

/-- The reference's result is the distance matrix of its argument. -/
theorem ref_eq (x0 : (⟨S8192x512, .f32⟩ : BufTy).Contents (Elt Ideal)) : val_main_v13 (F := Ideal) x0 = dist x0 := by
  funext i
  rw [val_main_v13_apply, val_main_v12_apply, val_main_v10_apply, val_main_v7_apply, val_main_v9_apply, val_main_v5_apply,
    val_main_v3_apply, val_main_v6_apply, val_main_v4_apply, val_main_v8_apply, val_main_cst_0_apply, val_main_v11_apply,
    val_main_cst_1_apply, val_main_v2_apply]
  simp only [val_main_v1_apply, val_main_v0_apply, val_main_cst_apply, idx_rowNorm, idx_colNorm, idx_lhs, idx_rhs,
    Ideal.ofBits_def, Ideal.addf_def, Ideal.subf_def, Ideal.mulf_def, Ideal.maximumf_def, Ideal.hostUnary_sqrt_def,
    Ideal.ofBits_zero_f32, zero_add, dist_apply, distOf, sqNorm, rowDot]

end Cert.ReferenceIdeal.RefDist

end
-- ==== Proof.lean ====
/-
  The certificate of the pairwise-distance kernel against its jnp reference.

  Both programs compute, for every pair of rows (r, c) of the 8192 × 512 argument,
  √ max( (‖a_r‖² + ‖a_c‖²) − 2 · ⟨a_r, a_c⟩ , 0 ) over the extended reals — the kernel tile by tile on an 8 × 8 grid,
  reading the one argument array through two input windows, the reference by whole-array operations.
  The frames: the kernel (at the word level and idealized) runs its 64 grid points and leaves the argument
  untouched, each of its two readers holding half of the argument's share; the reference is a straight line of
  host operations.  Nothing was rewritten by the idealization, so there is nothing to preserve.  The value claim
  sets the kernel's result array (the distance matrix, block by block) beside the reference's result read one
  operation at a time (the same matrix).
-/
import proofs.«108776_j47253230191386_1_alg».proof.Defs
import proofs.«108776_j47253230191386_1_alg».proof.Proof.Gen.Kernel
import proofs.«108776_j47253230191386_1_alg».proof.Proof.Gen.Kernel.Skeleton
import proofs.«108776_j47253230191386_1_alg».proof.Proof.Gen.Kernel.Launch
import proofs.«108776_j47253230191386_1_alg».proof.Proof.Gen.Kernel.Points
import proofs.«108776_j47253230191386_1_alg».proof.Proof.Gen.KernelIdeal
import proofs.«108776_j47253230191386_1_alg».proof.Proof.Gen.KernelIdeal.Skeleton
import proofs.«108776_j47253230191386_1_alg».proof.Proof.Gen.KernelIdeal.Launch
import proofs.«108776_j47253230191386_1_alg».proof.Proof.Gen.KernelIdeal.Points
import proofs.«108776_j47253230191386_1_alg».proof.Proof.Gen.ReferenceIdeal
import proofs.«108776_j47253230191386_1_alg».proof.Proof.Gen.Pre_finite_inputs
import proofs.«108776_j47253230191386_1_alg».proof.Proof.Gen.ReferenceIdeal.Run
import proofs.«108776_j47253230191386_1_alg».proof.Proof.Gen.ReferenceIdeal.Read
import proofs.«108776_j47253230191386_1_alg».proof.Proof.BitsFrame
import proofs.«108776_j47253230191386_1_alg».proof.Proof.IdealValue
import proofs.«108776_j47253230191386_1_alg».proof.Proof.RefDist
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both results are the distance matrix of the argument. -/
theorem algebraic : Cert.algebraic_KernelIdeal_ReferenceIdeal := by
  intro m ρ m' ρ' _ hagree
  refine ⟨fun c => Cert.DistSpec.dist (m ((c.tc : Thread Cert.KernelIdeal.nD Cert.KernelIdeal.τ).loc Cert.KernelIdeal.main_arg0)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefDist.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
